-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1 : Shape := ⟨2, ![2048, 1]⟩
abbrev S100000x128 : Shape := ⟨2, ![100000, 128]⟩
abbrev S128x100000 : Shape := ⟨2, ![128, 100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_
  bcast_S_S2048x1 : S_.BroadcastsInDim S2048x1 (![] : Fin 0 → Fin S2048x1.rank)
  reducesTo_S2048x1_S_d0_1 : S2048x1.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S2048x1 32) (main_arg1 : FVec F S100000x128 .f32) (main_arg2 : FVec F S128x100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x100000 .f32 := Host.absf main_arg2
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  let main_c_2 : IVec S_ 32 := constantI S_ 32 4294867296#32
  let main_v9 : IVec S2048x1 32 := broadcastInDim S2048x1 ![] bcast_S_S2048x1 main_c_2
  let main_v10 : IVec S2048x1 1 := cmpi .sge main_arg0 main_v9
  let main_c_3 : IVec S_ 1 := constantI S_ 1 1#1
  let main_v11 : IVec S_ 1 := (fun x v => Host.reduce IntOp.andi x v reducesTo_S2048x1_S_d0_1 h_S_) main_v10 main_c_3
  let main_v12 : IVec S_ 1 := andi main_v8 main_v11
  let main_c_4 : IVec S_ 32 := constantI S_ 32 100000#32
  let main_v13 : IVec S2048x1 32 := broadcastInDim S2048x1 ![] bcast_S_S2048x1 main_c_4
  let main_v14 : IVec S2048x1 1 := cmpi .slt main_arg0 main_v13
  let main_c_5 : IVec S_ 1 := constantI S_ 1 1#1
  let main_v15 : IVec S_ 1 := (fun x v => Host.reduce IntOp.andi x v reducesTo_S2048x1_S_d0_1 h_S_) main_v14 main_c_5
  fn_part1 (F := F) main_v12 main_v15
-- ==== Kernel.lean ====
abbrev S2048x1 : Shape := ⟨2, ![2048, 1]⟩
abbrev S100000x128 : Shape := ⟨2, ![100000, 128]⟩
abbrev S128x100000 : Shape := ⟨2, ![128, 100000]⟩
abbrev S2048 : Shape := ⟨1, ![2048]⟩
abbrev S_ : Shape := ⟨0, ![]⟩
abbrev S1 : Shape := ⟨1, ![1]⟩
abbrev S1x1 : Shape := ⟨2, ![1, 1]⟩
abbrev S2048x128 : Shape := ⟨2, ![2048, 128]⟩
abbrev S2048x100000 : Shape := ⟨2, ![2048, 100000]⟩
abbrev S128x1024 : Shape := ⟨2, ![128, 1024]⟩
abbrev S2048x1024 : Shape := ⟨2, ![2048, 1024]⟩

abbrev nBuf : Space → Nat
  | .hbm => 29
  | .vmem => 5
  | .smem => 0
  | _ => 0

abbrev bufTy : (tb : Table) → Fin (tcTables nBuf tb) → BufTy
  | .hbm, ⟨0, _⟩ => ⟨S2048x1, .i32⟩
  | .hbm, ⟨1, _⟩ => ⟨S100000x128, .f32⟩
  | .hbm, ⟨2, _⟩ => ⟨S128x100000, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S1, .i32⟩
  | .hbm, ⟨13, _⟩ => ⟨S_, .i32⟩
  | .hbm, ⟨14, _⟩ => ⟨S2048x1, .i32⟩
  | .hbm, ⟨15, _⟩ => ⟨S2048x1, .i1⟩
  | .hbm, ⟨16, _⟩ => ⟨S1x1, .i32⟩
  | .hbm, ⟨17, _⟩ => ⟨S2048x1, .i32⟩
  | .hbm, ⟨18, _⟩ => ⟨S2048x1, .i1⟩
  | .hbm, ⟨19, _⟩ => ⟨S2048x1, .i1⟩
  | .hbm, ⟨20, _⟩ => ⟨S_, .i1⟩
  | .hbm, ⟨21, _⟩ => ⟨S2048, .i1⟩
  | .hbm, ⟨22, _⟩ => ⟨S2048x128, .f32⟩
  | .hbm, ⟨23, _⟩ => ⟨S2048x128, .i1⟩
  | .hbm, ⟨24, _⟩ => ⟨S_, .f32⟩
  | .hbm, ⟨25, _⟩ => ⟨S2048x128, .f32⟩
  | .hbm, ⟨26, _⟩ => ⟨S2048x128, .f32⟩
  | .hbm, ⟨27, _⟩ => ⟨S2048x128, .bf16⟩
  | .hbm, ⟨28, _⟩ => ⟨S2048x100000, .f32⟩
  | .local _ .vmem, ⟨0, _⟩ => ⟨S2048x128, .bf16⟩
  | .local _ .vmem, ⟨1, _⟩ => ⟨S128x1024, .f32⟩
  | .local _ .vmem, ⟨2, _⟩ => ⟨S128x1024, .f32⟩
  | .local _ .vmem, ⟨3, _⟩ => ⟨S2048x1024, .f32⟩
  | .local _ .vmem, ⟨4, _⟩ => ⟨S2048x1024, .f32⟩
  | _, _ => ⟨S2048x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x128_0 : S2048.BroadcastsInDim S2048x128 (![0] : Fin 1 → Fin S2048x128.rank)
  bcast_S_S2048x128 : S_.BroadcastsInDim S2048x128 (![] : Fin 0 → Fin S2048x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x1024_S128x1024_0_0 : ∀ a, (![0, 0] : Fin 2 → Nat) a + S128x1024.size a ≤ S128x1024.size a
  h_S128x1024 : 0 < S128x1024.numel
  inb_S2048x1024_S2048x1024_0_0 : ∀ a, (![0, 0] : Fin 2 → Nat) a + S2048x1024.size a ≤ S2048x1024.size a
  h_S2048x1024 : 0 < S2048x1024.numel
  gather_S100000x128_S2048x1_S2048x128_1_0_n_n_0_1_1128_wf : GatherDims.WF S100000x128 S2048x1 S2048x128 [1] [0] [] [0] [] 1 ![1, 128]
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S2048x128.size a
  hwx0_0 : ∀ i : grid0.Coords, EltTy.bits .bf16 = 32 ∨ (Rect.block (s := S2048x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x1024.size a < S128x100000.size a
  hwx0_1 : ∀ i : grid0.Coords, EltTy.bits .f32 = 32 ∨ (Rect.unit (s := S128x100000) (fun a => cc0_transform_1 i a * S128x1024.size a) (fun a => (Pipeline.Clip.of (cc0_transform_1 i a) (S128x1024.size a) (S128x100000.size a)).extent (S128x1024.size a)) fun a => Pipeline.Clip.inb (Pipeline.Clip.ok_of (hstart0_1 i a))).WholeWords (EltTy.packing .f32)
  hwxs0_1 : ∀ i : grid0.Coords, EltTy.bits .f32 = 32 ∨ (Rect.unit (s := S128x1024) (fun _ => 0) (fun a => (Pipeline.Clip.of (cc0_transform_1 i a) (S128x1024.size a) (S128x100000.size a)).extent (S128x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x1024.size a < S2048x100000.size a
  hwx0_2 : ∀ i : grid0.Coords, EltTy.bits .f32 = 32 ∨ (Rect.unit (s := S2048x100000) (fun a => cc0_transform_2 i a * S2048x1024.size a) (fun a => (Pipeline.Clip.of (cc0_transform_2 i a) (S2048x1024.size a) (S2048x100000.size a)).extent (S2048x1024.size a)) fun a => Pipeline.Clip.inb (Pipeline.Clip.ok_of (hstart0_2 i a))).WholeWords (EltTy.packing .f32)
  hwxs0_2 : ∀ i : grid0.Coords, EltTy.bits .f32 = 32 ∨ (Rect.unit (s := S2048x1024) (fun _ => 0) (fun a => (Pipeline.Clip.of (cc0_transform_2 i a) (S2048x1024.size a) (S2048x100000.size a)).extent (S2048x1024.size a)) fun a => (Nat.zero_add _).trans_le (Pipeline.Clip.extent_le (Pipeline.Clip.ok_of (hstart0_2 i a)))).WholeWords (EltTy.packing .f32)

variable [Facts₀]

def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v2) S2048x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S128x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v3) S2048x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1 : Shape := ⟨2, ![2048, 1]⟩
abbrev S100000x128 : Shape := ⟨2, ![100000, 128]⟩
abbrev S128x100000 : Shape := ⟨2, ![128, 100000]⟩
abbrev S2048 : Shape := ⟨1, ![2048]⟩
abbrev S_ : Shape := ⟨0, ![]⟩
abbrev S2048x128 : Shape := ⟨2, ![2048, 128]⟩
abbrev S2048x100000 : Shape := ⟨2, ![2048, 100000]⟩

abbrev nBuf : Space → Nat
  | .hbm => 14
  | .vmem => 0
  | .smem => 0
  | _ => 0

abbrev bufTy : (tb : Table) → Fin (tcTables nBuf tb) → BufTy
  | .hbm, ⟨0, _⟩ => ⟨S2048x1, .i32⟩
  | .hbm, ⟨1, _⟩ => ⟨S100000x128, .f32⟩
  | .hbm, ⟨2, _⟩ => ⟨S128x100000, .f32⟩
  | .hbm, ⟨3, _⟩ => ⟨S2048, .i32⟩
  | .hbm, ⟨4, _⟩ => ⟨S_, .i32⟩
  | .hbm, ⟨5, _⟩ => ⟨S2048, .i32⟩
  | .hbm, ⟨6, _⟩ => ⟨S2048, .i1⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S2048x1, .i32⟩
  | .hbm, ⟨12, _⟩ => ⟨S2048x128, .f32⟩
  | .hbm, ⟨13, _⟩ => ⟨S2048x100000, .f32⟩
  | _, _ => ⟨S2048x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  gather_S100000x128_S2048x1_S2048x128_1_0_n_n_0_1_1128_wf : GatherDims.WF S100000x128 S2048x1 S2048x128 [1] [0] [] [0] [] 1 ![1, 128]
  dot_S2048x128_S128x100000_S2048x100000_1_0_0_1_n_n_wf : DotDims.WF S2048x128 S128x100000 S2048x100000 [1] [0] [0] [1] [] []

variable [Facts₀]

def gather_S100000x128_S2048x1_S2048x128_1_0_n_n_0_1_1128 : GatherDims S100000x128 S2048x1 S2048x128 where
  offsetDims := [1]
  collapsedSliceDims := [0]
  operandBatchingDims := []
  startIndicesBatchingDims := []
  startIndexMap := [0]
  indexVectorDim := 1
  sliceSizes := ![1, 128]
  wf := gather_S100000x128_S2048x1_S2048x128_1_0_n_n_0_1_1128_wf
def dot_S2048x128_S128x100000_S2048x100000_1_0_0_1_n_n : DotDims S2048x128 S128x100000 S2048x100000 where
  lhsContracting := [1]
  rhsContracting := [0]
  lhsNonContracting := [0]
  rhsNonContracting := [1]
  lhsBatch := []
  rhsBatch := []
  wf := dot_S2048x128_S128x100000_S2048x100000_1_0_0_1_n_n_wf

class Facts : Prop extends Facts₀ where

variable [Facts]
-- ==== Proof.BodyBits.lean ====
/-
  The projection kernel at one grid point, read at machine words, and the frame of its run.

  The pallas_call multiplies the gathered rows `h` (2048 × 128, one block, fetched once) by the column block
  `t` of `W2` (128 × 1024; the last of the 98 blocks has only 672 columns inside the array, and its staging
  buffer holds unnamed words in the other 352) and stores the 2048 × 1024 product into the result's staging
  buffer.  At machine words the product of two buffers is not read column by column, so nothing is said of what
  the result's window holds: it is handed to the body at any contents and taken back at any contents.  What is
  claimed is the frame: the program terminates, faults nowhere, and its three argument arrays end as they began.
-/
import proofs.«424107_j23751169147562_3_alg».proof.Proof.Gen.Kernel.Frame
import proofs.«424107_j23751169147562_3_alg».proof.Proof.Gen.Kernel.Skeleton
import Idealize.ShloMosaic.Lib.Pipeline.Kit
import Idealize.ShloMosaic.Lib.Pipeline.Value
import Idealize.ShloMosaic.Lib.Tactic
import Idealize.ShloMosaic.Lib.ValueIdx
import Idealize.ShloMosaic.PureOps.BitExact

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its buffer -/

abbrev rectH : Rect S2048x128 := Rect.unit (s := S2048x128) ![0, 0] S2048x128.size inb_S2048x128_S2048x128_0_0
abbrev rectW : Rect S128x1024 := Rect.unit (s := S128x1024) ![0, 0] S128x1024.size inb_S128x1024_S128x1024_0_0
abbrev rectU : Rect S2048x1024 := Rect.unit (s := S2048x1024) ![0, 0] S2048x1024.size inb_S2048x1024_S2048x1024_0_0

/-- What the result's staging buffer holds after the body, from what the two input buffers hold: its one store,
    of the product of the two loads. -/
def prod (x0 : Vec F S2048x128 .bf16) (x1 : Vec F S128x1024 .f32) : Vec F S2048x1024 .f32 :=
  View.canon [⟨rectU, k0_pay1 (View.ld x0 rectH) (View.ld x1 rectW)⟩]

/-- The one store covers the buffer. -/
theorem cover_prod (p0 : Vec F S2048x1024 .f32) (y : S2048x1024.Idx) :
    ∃ pc ∈ ([⟨rectU, p0⟩] : List (View.Piece (Elt F) S2048x1024 .f32)), y ∈ pc.1.set :=
  View.cover_of_tiled [⟨rectU, p0⟩] S2048x1024.size (by rfl) y

/-! ## The body's triple -/

set_option maxHeartbeats 1000000 in
/-- On whole staging memrefs, the inputs' at contents `x0`, `x1` and the result's at anything, the body runs to
    the continuation with the inputs' as they were and the result's at `prod x0 x1`. -/
theorem sound_kernel (c : Dev nD) (E : Set ℕ) (i : grid0.Coords)
    (arg1 : Memref sig .tc .vmem S2048x128 .bf16) (harg1 : arg1.IsWhole)
    (arg2 : Memref sig .tc .vmem S128x1024 .f32) (harg2 : arg2.IsWhole)
    (arg3 : Memref sig .tc .vmem S2048x1024 .f32) (harg3 : arg3.IsWhole)
    (x0 : Vec F S2048x128 .bf16) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-! ## The pipeline's proof data -/

variable (m : (ℓ : Loc nD τ sig) → Buf (Elt F) ℓ) (ρ : Dev nD → PrngReg)

/-- The column block of `W2` at point `t` as a whole 128 × 1024 buffer: the columns inside the array, and a
    fixed word in the columns past its end (only the last block has any; nothing reads them). -/
def wfull (c : Dev nD) (t : Fin cfg0.N) : S128x1024.Idx → Elt F .f32 :=
  win0_1.fill (grid0.coords t) (fun _ => Scalar.ofBits .f32 0#32) (iblk m c 1 t)

/-- After the body at point `t`: the rows' buffer at the rows, `W2`'s at its block, the result's at their product;
    the arrays as the region finds them; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfull m c t
    | ⟨2, _⟩ => prod (iblk m c 0 t) (wfull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wfull m c t := by dsimp only [dats]
theorem after_2 (c : Dev nD) (t : Fin cfg0.N) : (dats m 0 c).after 2 t = prod (iblk m c 0 t) (wfull m c t) := by
  dsimp only [dats]

/-- The rows' buffer holds the rows at every point (fetched at the first, untouched afterwards). -/
theorem before_0 (c : Dev nD) (t : Fin cfg0.N) (d) : (dats m 0 c).before 0 t d = iblk m c 0 t :=
  before0_0_of m (dats m 0 c) (A_eq m c 0) (after_0 m c) t d

/-- `W2`'s buffer is fetched at every point: its block on the columns inside the array, anything past them. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- The result's buffer holds anything: every point writes it back. -/
theorem before_2 (c : Dev nD) (t : Fin cfg0.N) (d) : (dats m 0 c).before 2 t d = d :=
  (dats m 0 c).before_out_reset 2 rfl t
    (by
      rcases Nat.eq_zero_or_pos t.val with h | h
      · exact .inl h
      · exact .inr ⟨by omega, flush0_2 _⟩) d

/-! ## The body obligation with the result's window forgotten, the run, the frame -/

/-- The windows whose contents the claim does not read: the result's. -/
def fgt : Fin cfg0.W → Bool := fun w => match w with
  | ⟨0, _⟩ => false
  | ⟨1, _⟩ => false
  | ⟨2, _⟩ => true

/-- At every point the body, handed the rows, the block of `W2` filled out with anything and a result buffer
    holding anything, leaves the two inputs as they were and the result's buffer holding something. -/
theorem body_obligation_fgt (c : Dev nD) :
    BodyObligationLoose (dats (F := F) m 0 c) (defs₀ (F := F)) Variants.none () Set.univ fgt := fun t => by
  rw [bigSep_W0, bigSep_W0]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_kernel (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_0]; iexact H0
  isplitl [H1]
  · iexists d1
    rw [after_1]; unfold wfull; rw [Window.cut_fill]; iexact H1
  · iexists _; iexact H2

/-- Every weakly fair execution of @main terminates, and every final state has each input array of the pipeline
    as the region found it, the result's array at something, and every other unscoped buffer as the region
    found it. -/
theorem run_main : θ_run defs (onTc (τ := τ) (main (F := F))) (s₀ m ρ)
    (Pipeline.RDat.FramePost (cfgs 0) (fun c => (dats m 0 c).toRForget fgt) (V m)) :=
  Pipeline.RDat.θ_run_frame cfgs (0 : Fin 1) launch0 defs₀ Variants.none (fun c => (dats m 0 c).toRForget fgt) m ρ main
    (hbody := fun c => (body_obligation_fgt m c).toRForget) (hshare := fun c => (dats m 0 c).share_full fun _ => rfl)
    (howed := fun _ _ => rfl) (V := V m) (hmain := hmain m Variants.none) (hA := A_eq m) (hΦ := fun _ _ => rfl)

/-- The kernel program runs and leaves its three argument arrays as they were: the indices and the table are
    staged by no window, and `W2` is the array of an input window. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c))⟩) (run_main m ρ)

end Cert.Kernel.Body

namespace Cert.Kernel.Body

open Idealize.ShloMosaic Idealize.SL.Sem

/-- The word-level kernel program runs and leaves its three argument arrays as they were. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)) :=
  frame_any (F := Bits) m ρ

end Cert.Kernel.Body

end
-- ==== Proof.BodyIdeal.lean ====
/-
  The projection kernel at one grid point, and the proof data of its pipeline.

  The pallas_call multiplies the gathered rows `h` (2048 × 128, one block, fetched once) by the column block
  `t` of `W2` (128 × 1024; the last of the 98 blocks has only 672 columns inside the array, and its staging
  buffer holds unnamed words in the other 352) and stores the 2048 × 1024 product into the result's staging
  buffer, of which the pipeline writes back only the columns inside the array.  The body's triple is stated on
  arbitrary whole staging buffers: the two inputs come back unchanged and the result's buffer holds the product
  of what the inputs held.
-/
import proofs.«424107_j23751169147562_3_alg».proof.Proof.Gen.KernelIdeal.Frame
import proofs.«424107_j23751169147562_3_alg».proof.Proof.Gen.KernelIdeal.Skeleton
import Idealize.ShloMosaic.Lib.Pipeline.Kit
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each the whole of its buffer -/

abbrev rectH : Rect S2048x128 := Rect.unit (s := S2048x128) ![0, 0] S2048x128.size inb_S2048x128_S2048x128_0_0
abbrev rectW : Rect S128x1024 := Rect.unit (s := S128x1024) ![0, 0] S128x1024.size inb_S128x1024_S128x1024_0_0
abbrev rectU : Rect S2048x1024 := Rect.unit (s := S2048x1024) ![0, 0] S2048x1024.size inb_S2048x1024_S2048x1024_0_0

/-- What the result's staging buffer holds after the body, from what the two input buffers hold: its one store,
    of the product of the two loads. -/
def prod (x0 : Vec F S2048x128 .bf16) (x1 : Vec F S128x1024 .f32) : Vec F S2048x1024 .f32 :=
  View.canon [⟨rectU, k0_pay1 (View.ld x0 rectH) (View.ld x1 rectW)⟩]

/-- The one store covers the buffer. -/
theorem cover_prod (p0 : Vec F S2048x1024 .f32) (y : S2048x1024.Idx) :
    ∃ pc ∈ ([⟨rectU, p0⟩] : List (View.Piece (Elt F) S2048x1024 .f32)), y ∈ pc.1.set :=
  View.cover_of_tiled [⟨rectU, p0⟩] S2048x1024.size (by rfl) y

/-! ## The body's triple -/

set_option maxHeartbeats 1000000 in
/-- On whole staging memrefs, the inputs' at contents `x0`, `x1` and the result's at anything, the body runs to
    the continuation with the inputs' as they were and the result's at `prod x0 x1`. -/
theorem sound_kernel (c : Dev nD) (E : Set ℕ) (i : grid0.Coords)
    (arg1 : Memref sig .tc .vmem S2048x128 .bf16) (harg1 : arg1.IsWhole)
    (arg2 : Memref sig .tc .vmem S128x1024 .f32) (harg2 : arg2.IsWhole)
    (arg3 : Memref sig .tc .vmem S2048x1024 .f32) (harg3 : arg3.IsWhole)
    (x0 : Vec F S2048x128 .bf16) (x1 : Vec F S128x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_prod _)

/-! ## The pipeline's proof data -/

variable (m : (ℓ : Loc nD τ sig) → Buf (Elt F) ℓ) (ρ : Dev nD → PrngReg)

/-- The column block of `W2` at point `t` as a whole 128 × 1024 buffer: the columns inside the array, and a
    fixed word in the columns past its end (only the last block has any; nothing reads them). -/
def wfull (c : Dev nD) (t : Fin cfg0.N) : S128x1024.Idx → Elt F .f32 :=
  win0_1.fill (grid0.coords t) (fun _ => Scalar.ofBits .f32 0#32) (iblk m c 1 t)

/-- After the body at point `t`: the rows' buffer at the rows, `W2`'s at its block, the result's at their product;
    the arrays as the region finds them; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfull m c t
    | ⟨2, _⟩ => prod (iblk m c 0 t) (wfull m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wfull m c t := by dsimp only [dats]
theorem after_2 (c : Dev nD) (t : Fin cfg0.N) : (dats m 0 c).after 2 t = prod (iblk m c 0 t) (wfull m c t) := by
  dsimp only [dats]

/-- The rows' buffer holds the rows at every point (fetched at the first, untouched afterwards). -/
theorem before_0 (c : Dev nD) (t : Fin cfg0.N) (d) : (dats m 0 c).before 0 t d = iblk m c 0 t :=
  before0_0_of m (dats m 0 c) (A_eq m c 0) (after_0 m c) t d

/-- `W2`'s buffer is fetched at every point: its block on the columns inside the array, anything past them. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- The result's buffer holds anything: every point writes it back. -/
theorem before_2 (c : Dev nD) (t : Fin cfg0.N) (d) : (dats m 0 c).before 2 t d = d :=
  (dats m 0 c).before_out_reset 2 rfl t
    (by
      rcases Nat.eq_zero_or_pos t.val with h | h
      · exact .inl h
      · exact .inr ⟨by omega, flush0_2 _⟩) d

/-! ## The product at an entry, over the extended reals -/

theorem zeros2 : (![0, 0] : Fin 2 → Nat) = fun _ => 0 := funext fun a => by fin_cases a <;> rfl

/-- Through whole-buffer accesses the product is the payload of the buffers' contents. -/
theorem prod_eq (x0 : Vec F S2048x128 .bf16) (x1 : Vec F S128x1024 .f32) : prod x0 x1 = k0_pay1 x0 x1 := by
  unfold prod
  rw [View.canon_unit_zero zeros2]
  simp only [View.ld_unit_zero (S := S2048x128) zeros2, View.ld_unit_zero (S := S128x1024) zeros2]

/-- Row `i 0` of the left operand at contraction index `k`, and column `i 1` of the right one. -/
abbrev lrow (i : S2048x1024.Idx) (k : Fin 128) : S2048x128.Idx := fun a => match a with
  | ⟨0, _⟩ => ⟨(i 0).val, (i 0).isLt⟩
  | ⟨1, _⟩ => ⟨k.val, k.isLt⟩
abbrev rcol (i : S2048x1024.Idx) (k : Fin 128) : S128x1024.Idx := fun a => match a with
  | ⟨0, _⟩ => ⟨k.val, k.isLt⟩
  | ⟨1, _⟩ => ⟨(i 1).val, (i 1).isLt⟩

theorem lhs_dot_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
theorem lhs_dot_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
theorem rhs_dot_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
theorem rhs_dot_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl

/-- Over the extended reals entry `(r, c)` of the product is the sum over `k` of row `r` of the rows times column
    `c` of the block: the accumulator is zero, a change of float format is the identity. -/
theorem pay_apply (x0 : FVec Ideal S2048x128 .bf16) (x1 : FVec Ideal S128x1024 .f32) (i : S2048x1024.Idx) :
    k0_pay1 (F := Ideal) x0 x1 i = ∑ k : Fin 128, x0 (lrow i k) * x1 (rcol i k) := by
  unfold k0_pay1
  simp only [matmul]
  rw [Ideal.matmul_constant_zero_apply, ← Equiv.sum_comp (ValueIdx.contrEquiv1 dot_S2048x128_S128x1024_S2048x1024_1_0_0_1_n_n 128 rfl rfl).symm]
  refine Finset.sum_congr rfl fun k _ => ?_
  have hk := ValueIdx.contrEquiv1_symm_val dot_S2048x128_S128x1024_S2048x1024_1_0_0_1_n_n 128 rfl rfl k
  have el : dot_S2048x128_S128x1024_S2048x1024_1_0_0_1_n_n.lhsIdx i ((ValueIdx.contrEquiv1 dot_S2048x128_S128x1024_S2048x1024_1_0_0_1_n_n 128 rfl rfl).symm k) = lrow i k := funext fun a => Fin.ext (by
    match a with
    | ⟨0, _⟩ => exact lhs_dot_0 _ _
    | ⟨1, _⟩ => exact (lhs_dot_1 _ _).trans hk)
  have er : dot_S2048x128_S128x1024_S2048x1024_1_0_0_1_n_n.rhsIdx i ((ValueIdx.contrEquiv1 dot_S2048x128_S128x1024_S2048x1024_1_0_0_1_n_n 128 rfl rfl).symm k) = rcol i k := funext fun a => Fin.ext (by
    match a with
    | ⟨0, _⟩ => exact (rhs_dot_0 _ _).trans hk
    | ⟨1, _⟩ => exact rhs_dot_1 _ _)
  rw [el, er, shapeCast_self]
  rfl

/-! ## The columns inside the array do not see the buffer's tail -/

/-- At every point `W2`'s block keeps all 128 rows, and its columns inside the array are the result block's. -/
theorem extents (t : Fin cfg0.N) :
    win0_1.xsize (grid0.coords t) 0 = 128 ∧ win0_2.xsize (grid0.coords t) 1 = win0_1.xsize (grid0.coords t) 1 :=
  (by decide +kernel : ∀ t : Fin grid0.N, win0_1.xsize (grid0.coords t) 0 = 128 ∧ win0_2.xsize (grid0.coords t) 1 = win0_1.xsize (grid0.coords t) 1) t

/-- Column `c` of the product depends on column `c` of the block only: on the columns the pipeline writes back the
    product is the same whatever the block's buffer holds past the array's end. -/
theorem prod_cut_fill (t : Fin cfg0.N) (x0 : FVec Ideal S2048x128 .bf16)
    (g : (win0_1.xblock (grid0.coords t)).Idx → Elt Ideal .f32) (d d' : S128x1024.Idx → Elt Ideal .f32) :
    win0_2.cut (grid0.coords t) (prod (F := Ideal) x0 (win0_1.fill (grid0.coords t) d g))
      = win0_2.cut (grid0.coords t) (prod (F := Ideal) x0 (win0_1.fill (grid0.coords t) d' g)) := by
  funext y
  show prod (F := Ideal) x0 _ (win0_2.xinj (grid0.coords t) y) = prod (F := Ideal) x0 _ (win0_2.xinj (grid0.coords t) y)
  rw [prod_eq, prod_eq, pay_apply, pay_apply]
  refine Finset.sum_congr rfl fun k _ => ?_
  have hm : win0_1.moved (grid0.coords t) (rcol (win0_2.xinj (grid0.coords t) y) k) = true :=
    (win0_1.moved_iff _ _).mpr fun a => by
      match a with
      | ⟨0, _⟩ => exact lt_of_lt_of_eq k.isLt (extents t).1.symm
      | ⟨1, _⟩ => exact lt_of_lt_of_eq (y 1).isLt (extents t).2
  unfold Window.fill
  rw [dif_pos hm, dif_pos hm]

/-! ## The body obligation over the extended reals, the run, the frame -/

section IdealRun

variable (m : (ℓ : Loc nD τ sig) → Buf (Elt Ideal) ℓ) (ρ : Dev nD → PrngReg)

/-- At every point the body, handed the rows, the block of `W2` filled out with anything and a result buffer
    holding anything, leaves the two inputs as they were and the result's buffer at their product, which on the
    columns inside the array is the product with the fixed filler (`prod_cut_fill`): all the pipeline asks of the
    two windows whose last block overhangs. -/
theorem body_obligation (c : Dev nD) :
    BodyObligationLoose (dats (F := Ideal) m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2)) (iblk m c 0 t)
    (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · rw [after_0]; iexact H0
  isplitl [H1]
  · iexists d1
    rw [after_1]; unfold wfull; rw [Window.cut_fill]; iexact H1
  · iexists prod (F := Ideal) (iblk m c 0 t) (win0_1.fill (grid0.coords t) d1 (iblk m c 1 t))
    rw [after_2]; unfold wfull
    rw [← prod_cut_fill t (iblk m c 0 t) (iblk m c 1 t) d1, Window.fill_cut]
    iexact H2

/-- Every weakly fair execution of @main terminates, and every final state has each array of the pipeline at what
    the proof data computes and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The idealized kernel program runs and leaves its three argument arrays as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end IdealRun

end Cert.KernelIdeal.Body

end
-- ==== Proof.ValueIdeal.lean ====
/-
  The result array of the idealized kernel program, in closed form.

  Point `t` of the grid writes back columns `1024·t … 1024·t + 1023` of the result (the last point only the 672
  columns inside the array), each entry `(r, c)` the sum over `k` of `h[r, k] · W2[k, c]` with `h` the gathered
  rows as the region finds them: the block of the ONE array `proj h W2`.  The 98 blocks cover the 100000 columns
  (column `c` lies in block `c / 1024`), so the array ends holding `proj h W2`.
-/
import proofs.«424107_j23751169147562_3_alg».proof.Proof.BodyIdeal

set_option maxRecDepth 16384

noncomputable section

namespace Cert.KernelIdeal.Final

open Cert.KernelIdeal Cert.KernelIdeal.Gen Cert.KernelIdeal.Body
open Idealize.ShloMosaic Idealize.ShloMosaic.TcCoe Idealize.SL.Sem
open Idealize.ShloMosaic.Pipeline (Dat Cfg Window)

/-- Row `i 0` of the rows at contraction index `k`, and column `i 1` of `W2` there. -/
abbrev hrow (i : S2048x100000.Idx) (k : Fin 128) : S2048x128.Idx := fun a => match a with
  | ⟨0, _⟩ => ⟨(i 0).val, (i 0).isLt⟩
  | ⟨1, _⟩ => ⟨k.val, k.isLt⟩
abbrev wcol (i : S2048x100000.Idx) (k : Fin 128) : S128x100000.Idx := fun a => match a with
  | ⟨0, _⟩ => ⟨k.val, k.isLt⟩
  | ⟨1, _⟩ => ⟨(i 1).val, (i 1).isLt⟩

/-- The projection `h · W2` over the extended reals, entry by entry. -/
def proj (h : FVec Ideal S2048x128 .bf16) (w : FVec Ideal S128x100000 .f32) : FVec Ideal S2048x100000 .f32 :=
  fun i => ∑ k : Fin 128, h (hrow i k) * w (wcol i k)

variable (m : (ℓ : Loc nD τ sig) → Buf (Elt Ideal) ℓ) (ρ : Dev nD → PrngReg)

/-- The gathered rows (in bf16, which over the extended reals changes nothing) and `W2`, as the region finds them. -/
abbrev harr (c : Dev nD) : FVec Ideal S2048x128 .bf16 := V m c main_v2
abbrev warr (c : Dev nD) : FVec Ideal S128x100000 .f32 := V m c main_arg2

theorem warr_eq (c : Dev nD) : warr m c = m ((c.tc : Thread nD τ).loc main_arg2) := V_main_arg2 m c

/-- The printed index maps and cuts, decided over the grid: the rows' block is the whole array; `W2`'s and the
    result's block index is the point, on the column axis; the result's block keeps all rows and the columns
    inside the array. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_2.xsize (grid0.coords t) (0 : Fin 2) = 2048
    ∧ win0_2.xsize (grid0.coords t) (1 : Fin 2) = min 1024 (100000 - 1024 * t.val) :=
  (by decide +kernel : ∀ t : Fin grid0.N, _)

/-- WHAT POINT `t` WRITES BACK is block `t` of `proj` of the rows and `W2` as the region finds them. -/
theorem flushed_eq (c : Dev nD) (t : Fin cfg0.N) :
    (dats m 0 c).flushed 2 t = ((cfg0.win 2).blk t).view.read (Elt Ideal) (proj (harr m c) (warr m c)) := by
  show (cfg0.win 2).cut (grid0.coords t) ((dats m 0 c).after 2 t) = _
  rw [after_2]
  obtain ⟨e00, e01, e10, e11, e20, e21, -, -⟩ := idx_facts t
  funext y
  show prod (F := Ideal) (iblk m c 0 t) (wfull m c t) (win0_2.xinj (grid0.coords t) y)
    = proj (harr m c) (warr m c) (((cfg0.win 2).blk t).view.emb y)
  rw [prod_eq, pay_apply]
  show _ = ∑ k : Fin 128, harr m c (hrow (((cfg0.win 2).blk t).view.emb y) k) * warr m c (wcol (((cfg0.win 2).blk t).view.emb y) k)
  refine Finset.sum_congr rfl fun k _ => ?_
  have hm : win0_1.moved (grid0.coords t) (rcol (win0_2.xinj (grid0.coords t) y) k) = true :=
    (win0_1.moved_iff _ _).mpr fun a => by
      match a with
      | ⟨0, _⟩ => exact lt_of_lt_of_eq k.isLt (extents t).1.symm
      | ⟨1, _⟩ => exact lt_of_lt_of_eq (y 1).isLt (extents t).2
  have hw : wfull m c t (rcol (win0_2.xinj (grid0.coords t) y) k)
      = warr m c (wcol (((cfg0.win 2).blk t).view.emb y) k) := by
    unfold wfull Window.fill
    rw [dif_pos hm]
    show warr m c (((cfg0.win 1).blk t).view.emb _) = _
    congr 1
    funext a; apply Fin.ext
    match a with
    | ⟨0, _⟩ => show win0_1.index t (0 : Fin 2) * 128 + 1 * k.val = k.val; omega
    | ⟨1, _⟩ => show win0_1.index t (1 : Fin 2) * 1024 + 1 * (y 1).val = win0_2.index t (1 : Fin 2) * 1024 + 1 * (y 1).val; omega
  have hh : iblk m c 0 t (lrow (win0_2.xinj (grid0.coords t) y) k)
      = harr m c (hrow (((cfg0.win 2).blk t).view.emb y) k) := by
    show harr m c (((cfg0.win 0).blk t).view.emb _) = _
    congr 1
    funext a; apply Fin.ext
    match a with
    | ⟨0, _⟩ => show win0_0.index t (0 : Fin 2) * 2048 + 1 * (y 0).val = win0_2.index t (0 : Fin 2) * 2048 + 1 * (y 0).val; omega
    | ⟨1, _⟩ => show win0_0.index t (1 : Fin 2) * 128 + 1 * k.val = k.val; omega
  rw [hw, hh]

/-- An index of the array is in point `t`'s block iff each coordinate is in the block's range inside the array. -/
theorem mem_blk (t : Fin cfg0.N) (i : S2048x100000.Idx) :
    i ∈ ((cfg0.win 2).blk t).view.set ↔ ∀ a : Fin 2, win0_2.index t a * S2048x1024.size a ≤ (i a).val
      ∧ (i a).val < win0_2.index t a * S2048x1024.size a + win0_2.xsize (grid0.coords t) a := by
  show i ∈ ((View.whole main_v3).slice (win0_2.rect t)).set ↔ _
  rw [View.set_slice_whole, Rect.mem_set_unit]
  exact Iff.rfl

/-- Column `c` lies in block `c / 1024`: the blocks cover the array. -/
theorem cover (i : S2048x100000.Idx) :
    ∃ t : Fin cfg0.N, (cfg0.win 2).flush t = true ∧ i ∈ ((cfg0.win 2).blk t).view.set := by
  have h0 : (i 0).val < 2048 := (i 0).isLt
  have h1 : (i 1).val < 100000 := (i 1).isLt
  have hN : (i 1).val / 1024 < cfg0.N := by
    show (i 1).val / 1024 < grid0.N
    rw [N_0]; omega
  refine ⟨⟨(i 1).val / 1024, hN⟩, flush0_2 _, ?_⟩
  rw [mem_blk]
  obtain ⟨-, -, -, -, e20, e21, x0, x1⟩ := idx_facts ⟨(i 1).val / 1024, hN⟩
  intro a
  match a with
  | ⟨0, _⟩ =>
    show win0_2.index ⟨(i 1).val / 1024, hN⟩ (0 : Fin 2) * 2048 ≤ (i 0).val
      ∧ (i 0).val < win0_2.index ⟨(i 1).val / 1024, hN⟩ (0 : Fin 2) * 2048 + win0_2.xsize (grid0.coords ⟨(i 1).val / 1024, hN⟩) (0 : Fin 2)
    rw [e20, x0]; omega
  | ⟨1, _⟩ =>
    show win0_2.index ⟨(i 1).val / 1024, hN⟩ (1 : Fin 2) * 1024 ≤ (i 1).val
      ∧ (i 1).val < win0_2.index ⟨(i 1).val / 1024, hN⟩ (1 : Fin 2) * 1024 + win0_2.xsize (grid0.coords ⟨(i 1).val / 1024, hN⟩) (1 : Fin 2)
    rw [e21, x1]
    show (i 1).val / 1024 * 1024 ≤ (i 1).val ∧ (i 1).val < (i 1).val / 1024 * 1024 + min 1024 (100000 - 1024 * ((i 1).val / 1024))
    omega

/-- THE RESULT ARRAY after the run: the projection of the rows, as the region finds them, by `W2`. -/
theorem final (c : Dev nD) :
    (dats m 0 c).arrAt 2 cfg0.N = proj (harr m c) (warr m c) :=
  (dats m 0 c).arrAt_eq_of_cover 2 _ (fun t _ => flushed_eq m c t) cover

/-- The run, read: the result array at `proj` of the rows and `W2`, the three arguments unchanged. -/
theorem run : θ_run defs (onTc (τ := τ) (main (F := Ideal))) ⟨m, fun _ => 0, ρ⟩ fun r => ∀ c : Dev nD,
      r.2.mem ((c.tc : Thread nD τ).loc main_v3) = proj (harr m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).1 2).trans ((final m c).trans (by rw [warr_eq])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩)
    (run_main m ρ)

end Cert.KernelIdeal.Final

end
-- ==== Proof.TakeRows.lean ====
import proofs.«424107_j23751169147562_3_alg».proof.Defs
import proofs.«424107_j23751169147562_3_alg».proof.Proof.Gen.KernelIdeal.Frame
import proofs.«424107_j23751169147562_3_alg».proof.Proof.Gen.ReferenceIdeal.Read
import proofs.«424107_j23751169147562_3_alg».proof.Proof.Gen.Pre_finite_inputs
import Idealize.ShloMosaic.Lib.Affine
import Idealize.ShloMosaic.Lib.ReduceAll
import Idealize.ShloMosaic.Lib.StableHlo.Run
import Idealize.ShloMosaic.Lib.ValueIdx
import Idealize.ShloMosaic.PureOps.Reduce

/-!
# The kernel's gathered rows are the reference's

The kernel takes the rows of the table by index: it normalises each index word (a negative
word is shifted up by the table's height, 100000), gathers, and replaces by NaN every row whose
normalised index falls outside `[0, 99999]`; it then narrows the rows to bf16. The reference
normalises the same way and gathers. Under the precondition every index word lies in
`[-100000, 100000)`, so every normalised index lies in `[0, 99999]`, the mask is all ones, and the
NaN branch is never taken; at the ideal instance narrowing is the identity. Hence the kernel's
left operand is, entry by entry, the reference's gathered rows.
-/

noncomputable section

namespace Cert.Proof.TakeRows
open Idealize.ShloMosaic Idealize.ShloMosaic.TcCoe Idealize.SL.Sem

/-! ## The index word -/

/-- The index word as both programs normalise it: a negative word is shifted up by the table's height. -/
def normIdx (x : BitVec 32) : BitVec 32 :=
  Scalar.select (IntOp.cmpi .slt x 0#32) (IntOp.addi x 100000#32) x

/-- A word in `[-100000, 100000)` normalises into `[0, 99999]`: a negative one gains 100000 without wrapping. -/
theorem toInt_normIdx (x : BitVec 32) (h1 : (-100000 : Int) ≤ x.toInt) (h2 : x.toInt < 100000) :
    0 ≤ (normIdx x).toInt ∧ (normIdx x).toInt ≤ 99999 := by
  unfold normIdx
  by_cases hx : x.toInt < 0
  · have hc : IntOp.cmpi .slt x 0#32 = 1#1 := IntOp.cmpi_slt.2 (by simpa using hx)
    rw [hc, ValueIdx.select_one]
    simp only [IntOp.addi, BitVec.toInt_eq_toNat_cond, BitVec.toNat_add, BitVec.toNat_ofNat] at *
    omega
  · have hc : ¬ IntOp.cmpi .slt x 0#32 = 1#1 := fun h => hx (by simpa using IntOp.cmpi_slt.1 h)
    rw [ValueIdx.eq_zero_of_ne_one hc, ValueIdx.select_zero]
    omega

/-- The in-range test of the normalised index, `0 ≤ y` and `y ≤ 99999`, is the bit one. -/
theorem mask_word (x : BitVec 32) (h1 : (-100000 : Int) ≤ x.toInt) (h2 : x.toInt < 100000) :
    IntOp.andi (IntOp.cmpi .sge (normIdx x) 0#32) (IntOp.cmpi .sle (normIdx x) 99999#32) = 1#1 := by
  obtain ⟨h0, h9⟩ := toInt_normIdx x h1 h2
  rw [IntOp.andi_eq_one, IntOp.cmpi_sge, IntOp.cmpi_sle]
  exact ⟨by simpa using h0, by simpa using h9⟩

/-- A fold by `and` that starts at one and meets only ones ends at one. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_one f hf l _ (IntOp.andi_eq_one.2 ⟨h, hf a⟩)

/-! ## The precondition read back -/

instance : Subsingleton Cert.Pre_finite_inputs.S_.Idx := ⟨fun a b => funext fun d => d.elim0⟩

theorem toInt_lo : (4294867296#32 : BitVec 32).toInt = -100000 := by decide
theorem toInt_hi : (100000#32 : BitVec 32).toInt = 100000 := by decide

/-- Under the precondition every index word lies in [-100000, 100000). -/
theorem ids_in_range (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S2048x1.Idx) :
    (-100000 : Int) ≤ (m ((c.tc : Thread Cert.KernelIdeal.nD Cert.KernelIdeal.τ).loc Cert.KernelIdeal.main_arg0) i).toInt
      ∧ (m ((c.tc : Thread Cert.KernelIdeal.nD Cert.KernelIdeal.τ).loc Cert.KernelIdeal.main_arg0) i).toInt < 100000 := by
  have h := congrFun (hpre c) ValueIdx.ix0
  dsimp only [Cert.Pre_finite_inputs.fn, Cert.Pre_finite_inputs.fn_part1] at h
  -- a conjunction of four all-entries tests: the last two speak of the index words
  change IntOp.andi (IntOp.andi _ _) _ = 1#1 at h
  obtain ⟨h123, h4⟩ := IntOp.andi_eq_one.1 h
  obtain ⟨-, h3⟩ := IntOp.andi_eq_one.1 h123
  have g3 := Host.reduce_andi_all _ _ _ _ _ h3 i
  have g4 := Host.reduce_andi_all _ _ _ _ _ h4 i
  -- each compares the word at `i` with a splat constant
  change IntOp.cmpi .sge _ (4294867296#32 : BitVec 32) = 1#1 at g3
  change IntOp.cmpi .slt _ (100000#32 : BitVec 32) = 1#1 at g4
  rw [IntOp.cmpi_sge, toInt_lo] at g3
  rw [IntOp.cmpi_slt, toInt_hi] at g4
  exact ⟨g3, g4⟩

/-! ## The kernel's left operand as one term of the argument arrays -/

section KernelTerm
open Cert.KernelIdeal

/-- The kernel's normalised index vector: the index column flattened, each word normalised. -/
def kIdx1 (x0 : IVec S2048x1 32) : IVec S2048 32 :=
  select
    (cmpi .slt (shapeCast S2048 x0 Gen.shapeCasts_S2048x1_S2048)
      (broadcastInDim S2048 ![] Gen.bcast_S_S2048 (constantI S_ 32 0#32)))
    (addi (shapeCast S2048 x0 Gen.shapeCasts_S2048x1_S2048)
      (broadcastInDim S2048 ![] Gen.bcast_S_S2048 (constantI S_ 32 100000#32)))
    (shapeCast S2048 x0 Gen.shapeCasts_S2048x1_S2048)

/-- The same as a column again: the gather's start indices. -/
def kIdx (x0 : IVec S2048x1 32) : IVec S2048x1 32 :=
  broadcastInDim S2048x1 ![0] Gen.bcast_S2048_S2048x1_0 (kIdx1 x0)

/-- The in-range test of each start index, before it is reduced over the column's one entry. -/
def kMask2 (x0 : IVec S2048x1 32) : IVec S2048x1 1 :=
  andi
    (cmpi .sge (kIdx x0) (broadcastInDim S2048x1 ![] Gen.bcast_S_S2048x1 (constantI S_ 32 0#32)))
    (cmpi .sle (kIdx x0)
      (broadcastInDim S2048x1 ![0, 1] Gen.bcast_S1x1_S2048x1_0_1
        (broadcastInDim S1x1 ![1] Gen.bcast_S1_S1x1_1 (constantI S1 32 99999#32))))

/-- The row mask: the test reduced by `and` over the column axis. -/
def kMask (x0 : IVec S2048x1 32) : IVec S2048 1 :=
  Host.reduce IntOp.andi (kMask2 x0) (constantI S_ 1 1#1) Gen.reducesTo_S2048x1_S2048_d1 Gen.h_S_

/-- The rows the kernel takes: the gathered row where the mask is set, NaN elsewhere. -/
def kRows (x0 : IVec S2048x1 32) (x1 : FVec Ideal S100000x128 .f32) : FVec Ideal S2048x128 .f32 :=
  select (broadcastInDim S2048x128 ![0] Gen.bcast_S2048_S2048x128_0 (kMask x0))
    (Host.gather gather_S100000x128_S2048x1_S2048x128_1_0_n_n_0_1_1128 x1 (kIdx x0))
    (broadcastInDim S2048x128 ![] Gen.bcast_S_S2048x128 (constant (F := Ideal) S_ .f32 0x7FC00000#32))

open Idealize.ShloMosaic.StableHlo in
/-- What the kernel's launch finds in its left operand: the taken rows narrowed to bf16. -/
theorem V_main_v2 (m : (ℓ : Loc nD τ sig) → Buf (Elt Ideal) ℓ) (c : Dev nD) :
    @Eq (S2048x128.Idx → EReal) (Gen.V (F := Ideal) m c main_v2)
      (truncf .bf16 (kRows (m ((c.tc : Thread nD τ).loc main_arg0)) (m ((c.tc : Thread nD τ).loc main_arg1)))
        Gen.bitsLt_bf16_f32) := by
  dsimp only [Gen.V]
  simp only [Gen.hostOps0, Gen.hostOps0_1, Gen.hostOps0_2, List.flatten_cons, List.flatten_nil, List.append_nil,
    List.cons_append, List.nil_append]
  after_results_simp
  rfl

end KernelTerm

/-! ## The rows read at an index -/

section Read
open Cert.KernelIdeal

/-- Every start index is the normalisation of some index word of the argument column. -/
theorem kIdx_apply (x0 : IVec S2048x1 32) (i : S2048x1.Idx) : ∃ k : S2048x1.Idx, kIdx x0 i = normIdx (x0 k) :=
  ⟨_, rfl⟩

/-- With every index word in range the in-range test is one everywhere … -/
theorem kMask2_one (x0 : IVec S2048x1 32) (hx : ∀ k, (-100000 : Int) ≤ (x0 k).toInt ∧ (x0 k).toInt < 100000)
    (i : S2048x1.Idx) : kMask2 x0 i = 1#1 := by
  obtain ⟨k, hk⟩ := kIdx_apply x0 i
  change IntOp.andi (IntOp.cmpi .sge (kIdx x0 i) 0#32) (IntOp.cmpi .sle (kIdx x0 i) 99999#32) = 1#1
  rw [hk]
  exact mask_word _ (hx k).1 (hx k).2

/-- … and so is the row mask. -/
theorem kMask_one (x0 : IVec S2048x1 32) (hx : ∀ k, (-100000 : Int) ≤ (x0 k).toInt ∧ (x0 k).toInt < 100000)
    (r : S2048.Idx) : kMask x0 r = 1#1 := by
  unfold kMask
  rw [Host.reduce_eq_foldl]
  exact foldl_andi_one _ (kMask2_one x0 hx) _ _ rfl

/-- With every index word in range the kernel's rows are the gathered rows: the NaN branch is never taken. -/
theorem kRows_apply (x0 : IVec S2048x1 32) (x1 : FVec Ideal S100000x128 .f32)
    (hx : ∀ k, (-100000 : Int) ≤ (x0 k).toInt ∧ (x0 k).toInt < 100000) (j : S2048x128.Idx) :
    kRows x0 x1 j = Host.gather gather_S100000x128_S2048x1_S2048x128_1_0_n_n_0_1_1128 x1 (kIdx x0) j := by
  change Scalar.select (kMask x0 _) _ _ = _
  rw [kMask_one x0 hx, ValueIdx.select_one]

/-- The kernel's start indices are the reference's, term for term. -/
theorem kIdx_eq (x0 : IVec S2048x1 32) : kIdx x0 = Cert.ReferenceIdeal.Read.val_main_v6 (F := Ideal) x0 := rfl

/-- The two programs' gathers carry the same dimension numbers. -/
theorem gather_eq (x0 : IVec S2048x1 32) (x1 : FVec Ideal S100000x128 .f32) :
    Host.gather gather_S100000x128_S2048x1_S2048x128_1_0_n_n_0_1_1128 x1 (kIdx x0)
      = Cert.ReferenceIdeal.Read.val_main_v7 (F := Ideal) x0 x1 := by
  unfold Cert.ReferenceIdeal.Read.val_main_v7
  rw [kIdx_eq]
  rfl

end Read

/-- THE DELIVERABLE: under the precondition, the kernel's left operand as its launch finds it (the bf16 array
    main_v2 after the host operations) is, entry by entry, the reference's gathered rows. At the ideal instance both
    element types are extended reals. -/
theorem hrows_eq (m : (ℓ : Loc Cert.KernelIdeal.nD Cert.KernelIdeal.τ Cert.KernelIdeal.sig) → Buf (Elt Ideal) ℓ)
    (hpre : Cert.Pre_KernelIdeal m) (c : Dev Cert.KernelIdeal.nD) (j : Cert.KernelIdeal.S2048x128.Idx) :
    (Cert.KernelIdeal.Gen.V (F := Ideal) m c Cert.KernelIdeal.main_v2 j : EReal)
      = (Cert.ReferenceIdeal.Read.val_main_v7 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) j : EReal) := by
  refine (congrFun (V_main_v2 m c) j).trans ?_
  change kRows _ _ j = _
  rw [kRows_apply _ _ (ids_in_range m hpre c) j, gather_eq]

end Cert.Proof.TakeRows
end
-- ==== Proof.lean ====
/-
  The certificate of a vocabulary projection: `u = W1[ids] · W2` over f32[100000, 128] and f32[128, 100000] for
  2048 indices.

  The kernel gathers the rows on the host with `jnp.take` — which, unlike the reference's `W1[ids]`, puts NaN in
  a row whose index is out of range —, rounds them to bf16 and multiplies them by `W2` one block of 1024 columns
  per grid point, 98 points, the last block holding only the 672 columns inside the array.  Over the extended
  reals a change of float format is the identity and the matrix unit's product is the plain sum of products, so
  entry `(r, c)` of the kernel's result is `∑ k, h[r, k] · W2[k, c]` with `h` the gathered rows, whatever the
  staging buffer held past the array's end (a column of the product reads only its own column of `W2`).  The
  reference is the same sum over its own gathered rows.  The two gathers read the same normalised index
  (negative indices wrap by the table's length in both), and under the stated domain of the indices,
  `-100000 ≤ ids < 100000`, the kernel's range mask is all ones, so its rows are the reference's.
  The idealization rewrote nothing: `preserves` is `True`.
-/
import proofs.«424107_j23751169147562_3_alg».proof.Defs
import proofs.«424107_j23751169147562_3_alg».proof.Proof.Gen.Kernel
import proofs.«424107_j23751169147562_3_alg».proof.Proof.Gen.KernelIdeal
import proofs.«424107_j23751169147562_3_alg».proof.Proof.Gen.ReferenceIdeal
import proofs.«424107_j23751169147562_3_alg».proof.Proof.Gen.ReferenceIdeal.Run
import proofs.«424107_j23751169147562_3_alg».proof.Proof.Gen.ReferenceIdeal.Read
import proofs.«424107_j23751169147562_3_alg».proof.Proof.Gen.Pre_finite_inputs
import proofs.«424107_j23751169147562_3_alg».proof.Proof.BodyBits
import proofs.«424107_j23751169147562_3_alg».proof.Proof.BodyIdeal
import proofs.«424107_j23751169147562_3_alg».proof.Proof.ValueIdeal
import proofs.«424107_j23751169147562_3_alg».proof.Proof.TakeRows
import Idealize.ShloMosaic.Adequacy
import Idealize.ShloMosaic.Init

noncomputable section

namespace Cert.Proof

open Idealize.ShloMosaic Idealize.ShloMosaic.TcCoe Idealize.SL.Sem

/-- The word-level kernel program runs and keeps its arguments (the result's contents are not read). -/
theorem frame_kernel : Cert.frame_Kernel := fun m ρ _ => Cert.Kernel.Body.frame m ρ

/-- So does the idealized one. -/
theorem frame_kernelIdeal : Cert.frame_KernelIdeal := fun m ρ _ => Cert.KernelIdeal.Body.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the reference's product is the projection of the KERNEL's rows: entry by entry both are
    the sum over `k` of a row entry times `W2[k, c]`, and the row entries agree (`TakeRows.hrows_eq`). -/
theorem reference_eq_proj (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Final.proj (Cert.KernelIdeal.Final.harr m c)
        (m ((c.tc : Thread Cert.KernelIdeal.nD Cert.KernelIdeal.τ).loc Cert.KernelIdeal.main_arg2)) := by
  funext i
  rw [Cert.ReferenceIdeal.Read.val_main_v8_apply]
  refine Finset.sum_congr rfl fun k _ => ?_
  rw [← Cert.Proof.TakeRows.hrows_eq m hpre c]
  rfl

/-- From memories agreeing on the arguments both programs end with the projection of the kernel's rows by `W2`. -/
theorem algebraic : Cert.algebraic_KernelIdeal_ReferenceIdeal := by
  intro m ρ m' ρ' hpre hagree
  refine ⟨fun c => Cert.KernelIdeal.Final.proj (Cert.KernelIdeal.Final.harr m c)
    (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, (hagree c).1, (hagree c).2.1, (hagree c).2.2]
  exact reference_eq_proj m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
